-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024x1024 .f32) (main_arg17 : FVec F S1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024x1024 .f32 := Host.absf main_arg16
  let main_cst_30 : FVec F S_ .f32 := constant S_ .f32 0x7F800000#32
  let main_v80 : FVec F S1024x1024 .f32 := broadcastInDim S1024x1024 ![] bcast_S_S1024x1024 main_cst_30
  let main_v81 : IVec S1024x1024 1 := cmpf .olt main_v79 main_v80
  let main_c_31 : IVec S_ 1 := constantI S_ 1 1#1
  let main_v82 : IVec S_ 1 := (fun x v => Host.reduce IntOp.andi x v reducesTo_S1024x1024_S_d0_1 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024x1024 .f32) (main_arg5 : FVec F S1024 .f32) (main_arg6 : FVec F S1024 .f32) (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024x1024 .f32) (main_arg5 : FVec F S1024 .f32) (main_arg6 : FVec F S1024 .f32) (main_arg7 : FVec F S1024x1024 .f32) (main_arg8 : FVec F S1024x1024 .f32) (main_arg9 : FVec F S1024 .f32) (main_arg10 : FVec F S1024 .f32) (main_arg11 : FVec F S1024x1024 .f32) (main_arg12 : FVec F S1024x1024 .f32) (main_arg13 : FVec F S1024 .f32) (main_arg14 : FVec F S1024 .f32) (main_arg15 : FVec F S1024x1024 .f32) (main_arg16 : FVec F S1024x1024 .f32) (main_arg17 : FVec F S1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 30
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x4096, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S8192x1024, .f32⟩
  | .hbm, ⟨29, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024, .f32⟩
  | .hbm, ⟨18, _⟩ => ⟨S1024, .f32⟩
  | .hbm, ⟨19, _⟩ => ⟨S1024x4096, .f32⟩
  | .hbm, ⟨20, _⟩ => ⟨S1024x4096, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S1x4096, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x1024_S1024x4096_S8192x4096_1_0_0_1_n_n_wf : DotDims.WF S8192x1024 S1024x4096 S8192x4096 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.CellFrameBits.lean ====
/-
  The frame run of the LSTM-cell kernel, at any float instance.

  @main first builds, on the host, the three arrays the kernel shares among all grid points: the four
  input-to-gate weight matrices laid side by side as one 1024 x 4096 matrix (narrowed to bf16), the four
  hidden-to-gate matrices likewise, and the four summed bias pairs laid end to end as one vector of 4096.  Then one
  region runs the kernel over 32 grid points; point t stages rows 256 t .. 256 t + 255 of x, h and c, the three shared
  arrays whole, and writes back the same rows of the two results.

  Here: what each TensorCore buffer holds when the region is entered (`entry`), that no host line touches an
  argument, the block of each window at a grid point, what the body leaves in its two output buffers as a function
  of the six input blocks (`hBlock`, `cBlock`), the body's triple, and the run of @main to the library's frame
  post, from which the frame claim follows.
-/
import proofs.«169946_j884763263700_1_alg».proof.Proof.Gen.Kernel.Launch
import proofs.«169946_j884763263700_1_alg».proof.Proof.Gen.Kernel.Skeleton
import proofs.«169946_j884763263700_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What core `c`'s buffer `b` holds when the region is entered: the launch contents after the nine host lines. -/
abbrev entry (c : Dev nD) (b : Ref sig .tc) : Buf (Elt F) ((c : Thread nD τ).loc b) :=
  StableHlo.after (List.flatten [hostOps0]) (fun b => m (c, b)) b

/-- None of the nine host lines allocates. -/
theorem hostOps0_noAlloc : (hostOps0 : List (HloOp τ sig (Elt F))).Forall fun op => op.fresh = ∅ := by
  simp only [List.Forall]; repeat' constructor

/-- @main is the nine host lines and then the region. -/
theorem main_upto (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub
    hostOps0_noAlloc main_chain

/-- The host lines write `main_v0` … `main_v8` and nothing else: any other buffer is found as launched. -/
theorem entry_untouched (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8) : entry m c b = m ((c : Thread nD τ).loc b) :=
  StableHlo.after_of_forall_not_mem (b := Proc.devRef .tc b) _ _ (List.forall_iff_forall_mem.mp (by
    obtain ⟨h0, h1, h2, h3, h4, h5, h6, h7, h8⟩ := hb
    simp only [hostOps0, List.flatten_cons, List.flatten_nil, List.append_nil, List.cons_append, List.nil_append,
      List.Forall, StableHlo.nary_writes, StableHlo.unary_writes, StableHlo.binary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input window's current staging buffer holds its block at every point, whether or not the pipeline fetched it
    there: a window that is not fetched again has not moved.  One statement per input window, since a window's block
    type is only known at the literal window. -/

/-- The rows of x. -/
theorem staged0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The rows of h. -/
theorem staged1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The rows of c. -/
theorem staged2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The input-to-gate weights, whole: fetched at the first point only. -/
theorem staged3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

/-- The hidden-to-gate weights, whole: fetched at the first point only. -/
theorem staged4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-- The bias vector, whole: fetched at the first point only. -/
theorem staged5 {c : Dev nD} (dat : Dat τ (Elt F) Unit ℕ (UR sig nD τ) ℕ cfg0 c)
    (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
      (fun t => by rw [hafter]; unfold Dat.blockOf blockAt; rw [hA]; try rfl) t d).trans
    (by unfold Dat.fetched Dat.blockOf blockAt; rw [hA]; try rfl)

/-! ## From the library's frame post to the frame claim -/

/-- A final state in the library's frame post has every argument as launched: x, h and c are arrays of input
    windows, which the pipeline only reads; the sixteen weight and bias arguments are staged by no window and keep
    their region-entry contents; and no host line wrote any of the nineteen. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
    ⟨((h c).1 0).trans (((dats 0 c).arrAt_in 0 rfl _).trans ((hA c 0).trans (entry_untouched m c main_arg0 (by decide)))),
     ((h c).1 1).trans (((dats 0 c).arrAt_in 1 rfl _).trans ((hA c 1).trans (entry_untouched m c main_arg1 (by decide)))),
     ((h c).1 2).trans (((dats 0 c).arrAt_in 2 rfl _).trans ((hA c 2).trans (entry_untouched m c main_arg2 (by decide)))),
     ((h c).2 main_arg3 (Pipeline.mem_restRefs_of main_arg3 (by decide) (by decide))).trans (entry_untouched m c main_arg3 (by decide)),
     ((h c).2 main_arg4 (Pipeline.mem_restRefs_of main_arg4 (by decide) (by decide))).trans (entry_untouched m c main_arg4 (by decide)),
     ((h c).2 main_arg5 (Pipeline.mem_restRefs_of main_arg5 (by decide) (by decide))).trans (entry_untouched m c main_arg5 (by decide)),
     ((h c).2 main_arg6 (Pipeline.mem_restRefs_of main_arg6 (by decide) (by decide))).trans (entry_untouched m c main_arg6 (by decide)),
     ((h c).2 main_arg7 (Pipeline.mem_restRefs_of main_arg7 (by decide) (by decide))).trans (entry_untouched m c main_arg7 (by decide)),
     ((h c).2 main_arg8 (Pipeline.mem_restRefs_of main_arg8 (by decide) (by decide))).trans (entry_untouched m c main_arg8 (by decide)),
     ((h c).2 main_arg9 (Pipeline.mem_restRefs_of main_arg9 (by decide) (by decide))).trans (entry_untouched m c main_arg9 (by decide)),
     ((h c).2 main_arg10 (Pipeline.mem_restRefs_of main_arg10 (by decide) (by decide))).trans (entry_untouched m c main_arg10 (by decide)),
     ((h c).2 main_arg11 (Pipeline.mem_restRefs_of main_arg11 (by decide) (by decide))).trans (entry_untouched m c main_arg11 (by decide)),
     ((h c).2 main_arg12 (Pipeline.mem_restRefs_of main_arg12 (by decide) (by decide))).trans (entry_untouched m c main_arg12 (by decide)),
     ((h c).2 main_arg13 (Pipeline.mem_restRefs_of main_arg13 (by decide) (by decide))).trans (entry_untouched m c main_arg13 (by decide)),
     ((h c).2 main_arg14 (Pipeline.mem_restRefs_of main_arg14 (by decide) (by decide))).trans (entry_untouched m c main_arg14 (by decide)),
     ((h c).2 main_arg15 (Pipeline.mem_restRefs_of main_arg15 (by decide) (by decide))).trans (entry_untouched m c main_arg15 (by decide)),
     ((h c).2 main_arg16 (Pipeline.mem_restRefs_of main_arg16 (by decide) (by decide))).trans (entry_untouched m c main_arg16 (by decide)),
     ((h c).2 main_arg17 (Pipeline.mem_restRefs_of main_arg17 (by decide) (by decide))).trans (entry_untouched m c main_arg17 (by decide)),
     ((h c).2 main_arg18 (Pipeline.mem_restRefs_of main_arg18 (by decide) (by decide))).trans (entry_untouched m c main_arg18 (by decide))⟩

/-- So a run of @main to the frame post is a run to the frame claim's post. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## The body's accesses and what it leaves -/

/-- The whole of a 256 x 1024 buffer (a block of x, h or c, or of a result). -/
abbrev rRows : Rect S256x1024 := Rect.unit (s := S256x1024) ![0, 0] S256x1024.size inb_S256x1024_S256x1024_0_0
/-- The whole of a 1024 x 4096 weight buffer. -/
abbrev rWeights : Rect S1024x4096 := Rect.unit (s := S1024x4096) ![0, 0] S1024x4096.size inb_S1024x4096_S1024x4096_0_0
/-- The whole of the bias buffer. -/
abbrev rBias : Rect S4096 := Rect.unit (s := S4096) ![0] S4096.size inb_S4096_S4096_0

/-- The new cell state's block, from the six input blocks: the body's one store into the last window, whose value is
    f * c + i * g with the gates read off the 256 x 4096 pre-activations. -/
def cBlock (x h c : Vec F S256x1024 .f32) (wx wh : Vec F S1024x4096 .bf16) (b : Vec F S4096 .f32) : Vec F S256x1024 .f32 :=
  View.canon [⟨rRows, k0_pay2 (View.ld x rRows) (View.ld h rRows) (View.ld wx rWeights) (View.ld wh rWeights)
    (View.ld b rBias) (View.ld c rRows)⟩]

/-- The new hidden state's block: the body's one store into the seventh window, o * tanh of the new cell state. -/
def hBlock (x h c : Vec F S256x1024 .f32) (wx wh : Vec F S1024x4096 .bf16) (b : Vec F S4096 .f32) : Vec F S256x1024 .f32 :=
  View.canon [⟨rRows, k0_pay3 (View.ld x rRows) (View.ld h rRows) (View.ld wx rWeights) (View.ld wh rWeights)
    (View.ld b rBias) (View.ld c rRows)⟩]

/-- A store through the whole-buffer rectangle covers the buffer. -/
theorem rRows_covers (p : Vec F S256x1024 .f32) (y : S256x1024.Idx) :
    ∃ pc ∈ ([⟨rRows, p⟩] : List (View.Piece (Elt F) S256x1024 .f32)), y ∈ pc.1.set :=
  View.cover_of_tiled [⟨rRows, p⟩] S256x1024.size (by rfl) y

/-! ## The body's triple -/

set_option maxHeartbeats 1000000 in
/-- The body on whole staging memrefs — the six inputs' at read contents, the two outputs' at anything — runs to the
    continuation with the inputs' contents as they were and the outputs' at `hBlock` and `cBlock` of them.  (The body
    also loads each output buffer before storing into it; the loaded value is used by nothing.) -/
theorem body_triple (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S1024x4096 .bf16) (harg4 : arg4.IsWhole)
    (arg5 : Memref sig .tc .vmem S1024x4096 .bf16) (harg5 : arg5.IsWhole)
    (arg6 : Memref sig .tc .vmem S4096 .f32) (harg6 : arg6.IsWhole)
    (arg7 : Memref sig .tc .vmem S256x1024 .f32) (harg7 : arg7.IsWhole)
    (arg8 : Memref sig .tc .vmem S256x1024 .f32) (harg8 : arg8.IsWhole)
    (x h cs : Vec F S256x1024 .f32) (wx wh : Vec F S1024x4096 .bf16) (b : Vec F S4096 .f32) (K : PUnit → sProp 𝕄) :
    iprop(owns (c : Thread nD τ) arg1 fullShare x ∗ owns (c : Thread nD τ) arg2 fullShare h
        ∗ owns (c : Thread nD τ) arg3 fullShare cs ∗ owns (c : Thread nD τ) arg4 fullShare wx
        ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h
            ∗ owns (c : Thread nD τ) arg3 fullShare cs ∗ owns (c : Thread nD τ) arg4 fullShare wx
            ∗ owns (c : Thread nD τ) arg5 fullShare wh ∗ owns (c : Thread nD τ) arg6 fullShare b
            ∗ owns (c : Thread nD τ) arg7 fullShare (hBlock x h cs wx wh b)
            ∗ owns (c : Thread nD τ) arg8 fullShare (cBlock x h cs wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (rRows_covers _)
  iexists _; isplitr
  swap; · iexact H8
  ipureintro
  exact View.read_writes_eq_canon _ _ _ (rRows_covers _)

/-! ## The pipeline's proof data -/

/-- On core `c`: the arrays as the region finds them; after the body at point `t` each input buffer still at its
    block, the two output buffers at `hBlock` and `cBlock` of the six input blocks; the body keeps nothing between
    points, signals no one and holds every buffer whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hBlock (blockAt m c 0 t) (blockAt m c 1 t) (blockAt m c 2 t) (blockAt m c 3 t) (blockAt m c 4 t) (blockAt m c 5 t)
    | ⟨7, _⟩ => cBlock (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_x (c : Dev nD) (t : Fin cfg0.N) : (dats m 0 c).after 0 t = blockAt m c 0 t := by dsimp only [dats]
theorem after_h (c : Dev nD) (t : Fin cfg0.N) : (dats m 0 c).after 1 t = blockAt m c 1 t := by dsimp only [dats]
theorem after_c (c : Dev nD) (t : Fin cfg0.N) : (dats m 0 c).after 2 t = blockAt m c 2 t := by dsimp only [dats]
theorem after_wx (c : Dev nD) (t : Fin cfg0.N) : (dats m 0 c).after 3 t = blockAt m c 3 t := by dsimp only [dats]
theorem after_wh (c : Dev nD) (t : Fin cfg0.N) : (dats m 0 c).after 4 t = blockAt m c 4 t := by dsimp only [dats]
theorem after_b (c : Dev nD) (t : Fin cfg0.N) : (dats m 0 c).after 5 t = blockAt m c 5 t := by dsimp only [dats]
theorem after_hout (c : Dev nD) (t : Fin cfg0.N) : (dats m 0 c).after 6 t
    = hBlock (blockAt m c 0 t) (blockAt m c 1 t) (blockAt m c 2 t) (blockAt m c 3 t) (blockAt m c 4 t) (blockAt m c 5 t) := by
  dsimp only [dats]
theorem after_cout (c : Dev nD) (t : Fin cfg0.N) : (dats m 0 c).after 7 t
    = cBlock (blockAt m c 0 t) (blockAt m c 1 t) (blockAt m c 2 t) (blockAt m c 3 t) (blockAt m c 4 t) (blockAt m c 5 t) := by
  dsimp only [dats]

theorem before_x (c : Dev nD) (t : Fin cfg0.N) (d) : (dats m 0 c).before 0 t d = blockAt m c 0 t :=
  staged0 m (dats m 0 c) (dats_A m c 0) (after_x m c) t d
theorem before_h (c : Dev nD) (t : Fin cfg0.N) (d) : (dats m 0 c).before 1 t d = blockAt m c 1 t :=
  staged1 m (dats m 0 c) (dats_A m c 1) (after_h m c) t d
theorem before_c (c : Dev nD) (t : Fin cfg0.N) (d) : (dats m 0 c).before 2 t d = blockAt m c 2 t :=
  staged2 m (dats m 0 c) (dats_A m c 2) (after_c m c) t d
theorem before_wx (c : Dev nD) (t : Fin cfg0.N) (d) : (dats m 0 c).before 3 t d = blockAt m c 3 t :=
  staged3 m (dats m 0 c) (dats_A m c 3) (after_wx m c) t d
theorem before_wh (c : Dev nD) (t : Fin cfg0.N) (d) : (dats m 0 c).before 4 t d = blockAt m c 4 t :=
  staged4 m (dats m 0 c) (dats_A m c 4) (after_wh m c) t d
theorem before_b (c : Dev nD) (t : Fin cfg0.N) (d) : (dats m 0 c).before 5 t d = blockAt m c 5 t :=
  staged5 m (dats m 0 c) (dats_A m c 5) (after_b m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: every input buffer holds its block, so `body_triple` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_wx, before_wh, before_b]
  rw [show (dats m 0 c).Φ t.succ = (dats m 0 c).Φ t.castSucc from rfl,
    show (dats m 0 c).owesAt () t.succ = (dats m 0 c).owesAt () t.castSucc from rfl,
    after_x, after_h, after_c, after_wx, after_wh, after_b, after_hout, after_cout]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t)
    (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, nothing faulting, with every array of the pipeline at what the
    library computes from the proof data and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := dats_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_run m ρ (dats m) (dats_A m) (run_main m ρ)

end Cert.Kernel.Cell

end
-- ==== Proof.CellFrame.lean ====
/-
  The frame run of the LSTM-cell kernel, at any float instance.

  @main first builds, on the host, the three arrays the kernel shares among all grid points: the four
  input-to-gate weight matrices laid side by side as one 1024 x 4096 matrix (narrowed to bf16), the four
  hidden-to-gate matrices likewise, and the four summed bias pairs laid end to end as one vector of 4096.  Then one
  region runs the kernel over 32 grid points; point t stages rows 256 t .. 256 t + 255 of x, h and c, the three shared
  arrays whole, and writes back the same rows of the two results.

  Here: what each TensorCore buffer holds when the region is entered (`entry`), that no host line touches an
  argument, the block of each window at a grid point, what the body leaves in its two output buffers as a function
  of the six input blocks (`hBlock`, `cBlock`), the body's triple, and the run of @main to the library's frame
  post, from which the frame claim follows.
-/
import proofs.«169946_j884763263700_1_alg».proof.Proof.Gen.KernelIdeal.Launch
import proofs.«169946_j884763263700_1_alg».proof.Proof.Gen.KernelIdeal.Skeleton
import proofs.«169946_j884763263700_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at the region's entry -/

/-- What core `c`'s buffer `b` holds when the region is entered: the launch contents after the nine host lines. -/
abbrev entry (c : Dev nD) (b : Ref sig .tc) : Buf (Elt F) ((c : Thread nD τ).loc b) :=
  StableHlo.after (List.flatten [hostOps0]) (fun b => m (c, b)) b

/-- None of the nine host lines allocates. -/
theorem hostOps0_noAlloc : (hostOps0 : List (HloOp τ sig (Elt F))).Forall fun op => op.fresh = ∅ := by
  simp only [List.Forall]; repeat' constructor

/-- @main is the nine host lines and then the region. -/
theorem main_upto (𝒱₀ : Variants) :
    Pipeline.HMain (Ix := Unit) (Name := ℕ) (U := UR sig nD τ) (Lvl := ℕ) cfgs 0 defs₀ 𝒱₀ m (main (F := F)) (entry m) :=
  Pipeline.hmain_prefixes cfgs 0 defs₀ 𝒱₀ m main [hostOps0] hostOps0_sub
    hostOps0_noAlloc main_chain

/-- The host lines write `main_v0` … `main_v8` and nothing else: any other buffer is found as launched. -/
theorem entry_untouched (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8) : entry m c b = m ((c : Thread nD τ).loc b) :=
  StableHlo.after_of_forall_not_mem (b := Proc.devRef .tc b) _ _ (List.forall_iff_forall_mem.mp (by
    obtain ⟨h0, h1, h2, h3, h4, h5, h6, h7, h8⟩ := hb
    simp only [hostOps0, List.flatten_cons, List.flatten_nil, List.append_nil, List.cons_append, List.nil_append,
      List.Forall, StableHlo.nary_writes, StableHlo.unary_writes, StableHlo.binary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

/-! ## The windows' blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! An input window's current staging buffer holds its block at every point, whether or not the pipeline fetched it
    there: a window that is not fetched again has not moved.  One statement per input window, since a window's block
    type is only known at the literal window. -/

/-- The rows of x. -/
theorem staged0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
      (fun t => by rw [hafter]; unfold Dat.blockOf blockAt; rw [hA]; try rfl) t d).trans
    (by unfold Dat.fetched Dat.blockOf blockAt; rw [hA]; try rfl)

/-- The rows of h. -/
theorem staged1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
      (fun t => by rw [hafter]; unfold Dat.blockOf blockAt; rw [hA]; try rfl) t d).trans
    (by unfold Dat.fetched Dat.blockOf blockAt; rw [hA]; try rfl)

/-- The rows of c. -/
theorem staged2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
      (fun t => by rw [hafter]; unfold Dat.blockOf blockAt; rw [hA]; try rfl) t d).trans
    (by unfold Dat.fetched Dat.blockOf blockAt; rw [hA]; try rfl)

/-- The input-to-gate weights, whole: fetched at the first point only. -/
theorem staged3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
      (fun t => by rw [hafter]; unfold Dat.blockOf blockAt; rw [hA]; try rfl) t d).trans
    (by unfold Dat.fetched Dat.blockOf blockAt; rw [hA]; try rfl)

/-- The hidden-to-gate weights, whole: fetched at the first point only. -/
theorem staged4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
      (fun t => by rw [hafter]; unfold Dat.blockOf blockAt; rw [hA]; try rfl) t d).trans
    (by unfold Dat.fetched Dat.blockOf blockAt; rw [hA]; try rfl)

/-- The bias vector, whole: fetched at the first point only. -/
theorem staged5 {c : Dev nD} (dat : Dat τ (Elt F) Unit ℕ (UR sig nD τ) ℕ cfg0 c)
    (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
      (fun t => by rw [hafter]; unfold Dat.blockOf blockAt; rw [hA]; try rfl) t d).trans
    (by unfold Dat.fetched Dat.blockOf blockAt; rw [hA]; try rfl)

/-! ## From the library's frame post to the frame claim -/

/-- A final state in the library's frame post has every argument as launched: x, h and c are arrays of input
    windows, which the pipeline only reads; the sixteen weight and bias arguments are staged by no window and keep
    their region-entry contents; and no host line wrote any of the nineteen. -/
theorem kept_of_post (dats : (p : Fin 1) → (c : Dev nD) → Dat τ (Elt F) Unit ℕ (UR sig nD τ) ℕ (cfgs p) c)
    (hA : ∀ c w, (dats 0 c).A w = entry m c (Pipeline.arrRef spec0 w))
    (r : PUnit × MemSt nD τ sig (Elt F)) (h : Pipeline.FramePost cfgs dats 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
    ⟨((h c).1 0).trans (((dats 0 c).arrAt_in 0 rfl _).trans ((hA c 0).trans (entry_untouched m c main_arg0 (by decide)))),
     ((h c).1 1).trans (((dats 0 c).arrAt_in 1 rfl _).trans ((hA c 1).trans (entry_untouched m c main_arg1 (by decide)))),
     ((h c).1 2).trans (((dats 0 c).arrAt_in 2 rfl _).trans ((hA c 2).trans (entry_untouched m c main_arg2 (by decide)))),
     ((h c).2 main_arg3 (Pipeline.mem_restRefs_of main_arg3 (by decide) (by decide))).trans (entry_untouched m c main_arg3 (by decide)),
     ((h c).2 main_arg4 (Pipeline.mem_restRefs_of main_arg4 (by decide) (by decide))).trans (entry_untouched m c main_arg4 (by decide)),
     ((h c).2 main_arg5 (Pipeline.mem_restRefs_of main_arg5 (by decide) (by decide))).trans (entry_untouched m c main_arg5 (by decide)),
     ((h c).2 main_arg6 (Pipeline.mem_restRefs_of main_arg6 (by decide) (by decide))).trans (entry_untouched m c main_arg6 (by decide)),
     ((h c).2 main_arg7 (Pipeline.mem_restRefs_of main_arg7 (by decide) (by decide))).trans (entry_untouched m c main_arg7 (by decide)),
     ((h c).2 main_arg8 (Pipeline.mem_restRefs_of main_arg8 (by decide) (by decide))).trans (entry_untouched m c main_arg8 (by decide)),
     ((h c).2 main_arg9 (Pipeline.mem_restRefs_of main_arg9 (by decide) (by decide))).trans (entry_untouched m c main_arg9 (by decide)),
     ((h c).2 main_arg10 (Pipeline.mem_restRefs_of main_arg10 (by decide) (by decide))).trans (entry_untouched m c main_arg10 (by decide)),
     ((h c).2 main_arg11 (Pipeline.mem_restRefs_of main_arg11 (by decide) (by decide))).trans (entry_untouched m c main_arg11 (by decide)),
     ((h c).2 main_arg12 (Pipeline.mem_restRefs_of main_arg12 (by decide) (by decide))).trans (entry_untouched m c main_arg12 (by decide)),
     ((h c).2 main_arg13 (Pipeline.mem_restRefs_of main_arg13 (by decide) (by decide))).trans (entry_untouched m c main_arg13 (by decide)),
     ((h c).2 main_arg14 (Pipeline.mem_restRefs_of main_arg14 (by decide) (by decide))).trans (entry_untouched m c main_arg14 (by decide)),
     ((h c).2 main_arg15 (Pipeline.mem_restRefs_of main_arg15 (by decide) (by decide))).trans (entry_untouched m c main_arg15 (by decide)),
     ((h c).2 main_arg16 (Pipeline.mem_restRefs_of main_arg16 (by decide) (by decide))).trans (entry_untouched m c main_arg16 (by decide)),
     ((h c).2 main_arg17 (Pipeline.mem_restRefs_of main_arg17 (by decide) (by decide))).trans (entry_untouched m c main_arg17 (by decide)),
     ((h c).2 main_arg18 (Pipeline.mem_restRefs_of main_arg18 (by decide) (by decide))).trans (entry_untouched m c main_arg18 (by decide))⟩

/-- So a run of @main to the frame post is a run to the frame claim's post. -/
theorem frame_of_run (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## The body's accesses and what it leaves -/

/-- The whole of a 256 x 1024 buffer (a block of x, h or c, or of a result). -/
abbrev rRows : Rect S256x1024 := Rect.unit (s := S256x1024) ![0, 0] S256x1024.size inb_S256x1024_S256x1024_0_0
/-- The whole of a 1024 x 4096 weight buffer. -/
abbrev rWeights : Rect S1024x4096 := Rect.unit (s := S1024x4096) ![0, 0] S1024x4096.size inb_S1024x4096_S1024x4096_0_0
/-- The whole of the bias buffer. -/
abbrev rBias : Rect S4096 := Rect.unit (s := S4096) ![0] S4096.size inb_S4096_S4096_0

/-- The new cell state's block, from the six input blocks: the body's one store into the last window, whose value is
    f * c + i * g with the gates read off the 256 x 4096 pre-activations. -/
def cBlock (x h c : Vec F S256x1024 .f32) (wx wh : Vec F S1024x4096 .bf16) (b : Vec F S4096 .f32) : Vec F S256x1024 .f32 :=
  View.canon [⟨rRows, k0_pay2 (View.ld x rRows) (View.ld h rRows) (View.ld wx rWeights) (View.ld wh rWeights)
    (View.ld b rBias) (View.ld c rRows)⟩]

/-- The new hidden state's block: the body's one store into the seventh window, o * tanh of the new cell state. -/
def hBlock (x h c : Vec F S256x1024 .f32) (wx wh : Vec F S1024x4096 .bf16) (b : Vec F S4096 .f32) : Vec F S256x1024 .f32 :=
  View.canon [⟨rRows, k0_pay3 (View.ld x rRows) (View.ld h rRows) (View.ld wx rWeights) (View.ld wh rWeights)
    (View.ld b rBias) (View.ld c rRows)⟩]

/-- A store through the whole-buffer rectangle covers the buffer. -/
theorem rRows_covers (p : Vec F S256x1024 .f32) (y : S256x1024.Idx) :
    ∃ pc ∈ ([⟨rRows, p⟩] : List (View.Piece (Elt F) S256x1024 .f32)), y ∈ pc.1.set :=
  View.cover_of_tiled [⟨rRows, p⟩] S256x1024.size (by rfl) y

/-! ## The body's triple -/

set_option maxHeartbeats 1000000 in
/-- The body on whole staging memrefs — the six inputs' at read contents, the two outputs' at anything — runs to the
    continuation with the inputs' contents as they were and the outputs' at `hBlock` and `cBlock` of them.  (The body
    also loads each output buffer before storing into it; the loaded value is used by nothing.) -/
theorem body_triple (c : Dev nD) (E : Set ℕ) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S256x1024 .f32) (harg3 : arg3.IsWhole)
    (arg4 : Memref sig .tc .vmem S1024x4096 .bf16) (harg4 : arg4.IsWhole)
    (arg5 : Memref sig .tc .vmem S1024x4096 .bf16) (harg5 : arg5.IsWhole)
    (arg6 : Memref sig .tc .vmem S4096 .f32) (harg6 : arg6.IsWhole)
    (arg7 : Memref sig .tc .vmem S256x1024 .f32) (harg7 : arg7.IsWhole)
    (arg8 : Memref sig .tc .vmem S256x1024 .f32) (harg8 : arg8.IsWhole)
    (x h cs : Vec F S256x1024 .f32) (wx wh : Vec F S1024x4096 .bf16) (b : Vec F S4096 .f32) (K : PUnit → sProp 𝕄) :
    iprop(owns (c : Thread nD τ) arg1 fullShare x ∗ owns (c : Thread nD τ) arg2 fullShare h
        ∗ owns (c : Thread nD τ) arg3 fullShare cs ∗ owns (c : Thread nD τ) arg4 fullShare wx
        ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h
            ∗ owns (c : Thread nD τ) arg3 fullShare cs ∗ owns (c : Thread nD τ) arg4 fullShare wx
            ∗ owns (c : Thread nD τ) arg5 fullShare wh ∗ owns (c : Thread nD τ) arg6 fullShare b
            ∗ owns (c : Thread nD τ) arg7 fullShare (hBlock x h cs wx wh b)
            ∗ owns (c : Thread nD τ) arg8 fullShare (cBlock x h cs wx wh b)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (rRows_covers _)
  iexists _; isplitr
  swap; · iexact H8
  ipureintro
  exact View.read_writes_eq_canon _ _ _ (rRows_covers _)

/-! ## The pipeline's proof data -/

/-- On core `c`: the arrays as the region finds them; after the body at point `t` each input buffer still at its
    block, the two output buffers at `hBlock` and `cBlock` of the six input blocks; the body keeps nothing between
    points, signals no one and holds every buffer whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hBlock (blockAt m c 0 t) (blockAt m c 1 t) (blockAt m c 2 t) (blockAt m c 3 t) (blockAt m c 4 t) (blockAt m c 5 t)
    | ⟨7, _⟩ => cBlock (blockAt m c 0 t) (blockAt m c 1 t) (blockAt m c 2 t) (blockAt m c 3 t) (blockAt m c 4 t) (blockAt m c 5 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem after_x (c : Dev nD) (t : Fin cfg0.N) : (dats m 0 c).after 0 t = blockAt m c 0 t := by dsimp only [dats]
theorem after_h (c : Dev nD) (t : Fin cfg0.N) : (dats m 0 c).after 1 t = blockAt m c 1 t := by dsimp only [dats]
theorem after_c (c : Dev nD) (t : Fin cfg0.N) : (dats m 0 c).after 2 t = blockAt m c 2 t := by dsimp only [dats]
theorem after_wx (c : Dev nD) (t : Fin cfg0.N) : (dats m 0 c).after 3 t = blockAt m c 3 t := by dsimp only [dats]
theorem after_wh (c : Dev nD) (t : Fin cfg0.N) : (dats m 0 c).after 4 t = blockAt m c 4 t := by dsimp only [dats]
theorem after_b (c : Dev nD) (t : Fin cfg0.N) : (dats m 0 c).after 5 t = blockAt m c 5 t := by dsimp only [dats]
theorem after_hout (c : Dev nD) (t : Fin cfg0.N) : (dats m 0 c).after 6 t
    = hBlock (blockAt m c 0 t) (blockAt m c 1 t) (blockAt m c 2 t) (blockAt m c 3 t) (blockAt m c 4 t) (blockAt m c 5 t) := by
  dsimp only [dats]
theorem after_cout (c : Dev nD) (t : Fin cfg0.N) : (dats m 0 c).after 7 t
    = cBlock (blockAt m c 0 t) (blockAt m c 1 t) (blockAt m c 2 t) (blockAt m c 3 t) (blockAt m c 4 t) (blockAt m c 5 t) := by
  dsimp only [dats]

theorem before_x (c : Dev nD) (t : Fin cfg0.N) (d) : (dats m 0 c).before 0 t d = blockAt m c 0 t :=
  staged0 m (dats m 0 c) (dats_A m c 0) (after_x m c) t d
theorem before_h (c : Dev nD) (t : Fin cfg0.N) (d) : (dats m 0 c).before 1 t d = blockAt m c 1 t :=
  staged1 m (dats m 0 c) (dats_A m c 1) (after_h m c) t d
theorem before_c (c : Dev nD) (t : Fin cfg0.N) (d) : (dats m 0 c).before 2 t d = blockAt m c 2 t :=
  staged2 m (dats m 0 c) (dats_A m c 2) (after_c m c) t d
theorem before_wx (c : Dev nD) (t : Fin cfg0.N) (d) : (dats m 0 c).before 3 t d = blockAt m c 3 t :=
  staged3 m (dats m 0 c) (dats_A m c 3) (after_wx m c) t d
theorem before_wh (c : Dev nD) (t : Fin cfg0.N) (d) : (dats m 0 c).before 4 t d = blockAt m c 4 t :=
  staged4 m (dats m 0 c) (dats_A m c 4) (after_wh m c) t d
theorem before_b (c : Dev nD) (t : Fin cfg0.N) (d) : (dats m 0 c).before 5 t d = blockAt m c 5 t :=
  staged5 m (dats m 0 c) (dats_A m c 5) (after_b m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: every input buffer holds its block, so `body_triple` applies; the invariant and the core's
    dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_h, before_c, before_wx, before_wh, before_b]
  rw [show (dats m 0 c).Φ t.succ = (dats m 0 c).Φ t.castSucc from rfl,
    show (dats m 0 c).owesAt () t.succ = (dats m 0 c).owesAt () t.castSucc from rfl,
    after_x, after_h, after_c, after_wx, after_wh, after_b, after_hout, after_cout]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t)
    (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates, nothing faulting, with every array of the pipeline at what the
    library computes from the proof data and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := dats_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of_run m ρ (dats m) (dats_A m) (run_main m ρ)

end Cert.KernelIdeal.Cell

end
-- ==== Proof.CellSpec.lean ====
/-
  The LSTM cell over the extended reals, index by index.

  With x, h, c the 8192 x 1024 inputs, Wx and Wh the 1024 x 4096 matrices that hold the four gates' weights side by
  side (columns 0..1023 the input gate, 1024..2047 the forget gate, 2048..3071 the candidate, 3072..4095 the output
  gate) and b the 4096 summed biases, row r has the 4096 pre-activations

      z r j = (sum over k of x r k * Wx k j) + (sum over k of h r k * Wh k j) + b j,

  and, with sigma the logistic function,

      c' r q = sigma (z r (1024 + q)) * c r q + sigma (z r q) * tanh (z r (2048 + q)),
      h' r q = sigma (z r (3072 + q)) * tanh (c' r q).

  Both programs compute exactly these expressions, in this order of operations, so no law of the extended reals is
  needed beyond reading each operation at an index.
-/
import Idealize.ShloMosaic.PureOps.Ideal.Laws
import Idealize.ShloMosaic.Lib.ValueIdx

noncomputable section

namespace Cert.CellSpec

open Idealize.ShloMosaic Idealize.ShloMosaic.ValueIdx
open scoped BigOperators

abbrev Rows : Shape := ⟨2, ![8192, 1024]⟩
abbrev Weights : Shape := ⟨2, ![1024, 4096]⟩
abbrev Biases : Shape := ⟨1, ![4096]⟩

/-- Column `q` of the gate whose columns start at `o`. -/
def col (o : Nat) (ho : o + 1024 ≤ 4096) (q : Fin 1024) : Fin 4096 := ⟨o + q.val, by have := q.isLt; omega⟩

theorem col_val (o : Nat) (ho : o + 1024 ≤ 4096) (q : Fin 1024) : (col o ho q).val = o + q.val := rfl

/-- The pre-activations of one row, from that row of x and of h. -/
def rowPre (xr hr : Fin 1024 → EReal) (wx wh : Weights.Idx → EReal) (b : Biases.Idx → EReal) (j : Fin 4096) : EReal :=
  (∑ k : Fin 1024, xr k * wx (ix2 k j)) + (∑ k : Fin 1024, hr k * wh (ix2 k j)) + b (ix1 j)

/-- The new cell state at column `q`, from the row's pre-activations and the old cell state there. -/
def cellOf (z : Fin 4096 → EReal) (cv : EReal) (q : Fin 1024) : EReal :=
  Ideal.logistic (z (col 1024 (by norm_num) q)) * cv
    + Ideal.logistic (z (col 0 (by norm_num) q)) * Ideal.tanh (z (col 2048 (by norm_num) q))

/-- The new hidden state at column `q`. -/
def hiddenOf (z : Fin 4096 → EReal) (cv : EReal) (q : Fin 1024) : EReal :=
  Ideal.logistic (z (col 3072 (by norm_num) q)) * Ideal.tanh (cellOf z cv q)

/-- The new cell state, as one function of the arrays. -/
def newCell (x h c : Rows.Idx → EReal) (wx wh : Weights.Idx → EReal) (b : Biases.Idx → EReal) : Rows.Idx → EReal :=
  fun i => cellOf (rowPre (fun k => x (ix2 (i 0) k)) (fun k => h (ix2 (i 0) k)) wx wh b) (c i) (i 1)

/-- The new hidden state, as one function of the arrays. -/
def newHidden (x h c : Rows.Idx → EReal) (wx wh : Weights.Idx → EReal) (b : Biases.Idx → EReal) : Rows.Idx → EReal :=
  fun i => hiddenOf (rowPre (fun k => x (ix2 (i 0) k)) (fun k => h (ix2 (i 0) k)) wx wh b) (c i) (i 1)

end Cert.CellSpec

end
-- ==== Proof.CellPayload.lean ====
/-
  The kernel body's arithmetic at an index, over the extended reals.

  The body forms the 256 x 4096 pre-activations of its 256 rows — the product of the rows of x with the
  input-to-gate weights plus the product of the rows of h with the hidden-to-gate weights, each into a zero
  accumulator, plus the bias broadcast down the rows —, cuts them into the four gates' 256 x 1024 column blocks, and
  combines them with the rows of c.  Read at row p and column q this is the specification's `rowPre`, `cellOf` and
  `hiddenOf` of row p of the two blocks: a product into a zero accumulator is the plain sum over the contracted
  axis, a change of float format is the identity, and every other operation is elementwise or a re-indexing.
-/
import proofs.«169946_j884763263700_1_alg».proof.Proof.Gen.KernelIdeal.Skeleton
import proofs.«169946_j884763263700_1_alg».proof.Proof.CellSpec
import Idealize.ShloMosaic.Lib.ValueLayout
import Idealize.ShloMosaic.Lib.Pipeline.Value
import Idealize.ShloMosaic.PureOps.Ideal.Laws
import Idealize.ShloMosaic.Lib.ValueIdx

noncomputable section

namespace Cert.KernelIdeal.CellPayload

open Cert.KernelIdeal Cert.KernelIdeal.Gen Cert.CellSpec
open Idealize.ShloMosaic Idealize.ShloMosaic.ValueIdx
open scoped BigOperators

/-! ## The matrix product's operand indices -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A 256 x 1024 block times a 1024 x 4096 matrix into the zero accumulator, at row `p` and column `j`: the sum over
    `k` of the block's row `p` against the matrix's column `j`. -/
theorem product_at (l : FVec Ideal S256x1024 .bf16) (r : FVec Ideal S1024x4096 .bf16) (p : Fin 256) (j : Fin 4096) :
    matmul dot_S256x1024_S1024x4096_S256x4096_1_0_0_1_n_n none l r (constant S256x4096 .f32 0x00000000#32) (ix2 p j)
      = ∑ k : Fin 1024, l (ix2 p k) * r (ix2 k j) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k :=
    funext fun a => Fin.ext (by
      match a with
      | ⟨0, _⟩ => exact lhs_row _ _
      | ⟨1, _⟩ => exact (lhs_contr _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j :=
    funext fun a => Fin.ext (by
      match a with
      | ⟨0, _⟩ => exact (rhs_contr _ _).trans hk
      | ⟨1, _⟩ => exact rhs_col _ _)
  rw [el, er]

/-- The bias vector laid out as one row and broadcast down the 256 rows reads, at `(p, j)`, entry `j`. -/
theorem bias_at (v : Vec Ideal S4096 .f32) (p : Fin 256) (j : Fin 4096) :
    broadcastTo S256x4096 (shapeCast S1x4096 (shapeCast S4096 v shapeCasts_S4096_S4096) shapeCasts_S4096_S1x4096)
      broadcasts_S1x4096_S256x4096 (ix2 p j) = v (ix1 j) := by
  rw [broadcastTo_1b_ab_apply, shapeCast_a_1a_apply, shapeCast_self]

/-! ## The three payloads -/

theorem logistic_at {s : Shape} (v : FVec Ideal s .f32) (i : s.Idx) : logistic v i = Ideal.logistic (v i) := rfl
theorem tanh_at {s : Shape} (v : FVec Ideal s .f32) (i : s.Idx) : tanh v i = Ideal.tanh (v i) := rfl

/-- The pre-activations of the block's row `p`. -/
theorem preact_at (x h : Vec Ideal S256x1024 .f32) (wx wh : Vec Ideal S1024x4096 .bf16) (b : Vec Ideal S4096 .f32)
    (p : Fin 256) (j : Fin 4096) :
    k0_pay1 (F := Ideal) x h wx wh b (ix2 p j)
      = rowPre (fun k => x (ix2 p k)) (fun k => h (ix2 p k)) wx wh b j := by
  unfold k0_pay1 rowPre
  rw [addf_apply, addf_apply, product_at, product_at, bias_at, shapeCast_self, shapeCast_self]
  rfl

/-- The new cell state of the block's row `p` at column `q`. -/
theorem cell_at (x h c : Vec Ideal S256x1024 .f32) (wx wh : Vec Ideal S1024x4096 .bf16) (b : Vec Ideal S4096 .f32)
    (p : Fin 256) (q : Fin 1024) :
    k0_pay2 (F := Ideal) x h wx wh b c (ix2 p q)
      = cellOf (rowPre (fun k => x (ix2 p k)) (fun k => h (ix2 p k)) wx wh b) (c (ix2 p q)) q := by
  unfold k0_pay2 cellOf
  have e0 := slice2_axis1_apply 0 (k0_pay1 (F := Ideal) x h wx wh b) slices_S256x4096_o0_0_S256x1024 p q
    (col 0 (by norm_num) q) rfl
  have e1 := slice2_axis1_apply 1024 (k0_pay1 (F := Ideal) x h wx wh b) slices_S256x4096_o0_1024_S256x1024 p q
    (col 1024 (by norm_num) q) rfl
  have e2 := slice2_axis1_apply 2048 (k0_pay1 (F := Ideal) x h wx wh b) slices_S256x4096_o0_2048_S256x1024 p q
    (col 2048 (by norm_num) q) rfl
  rw [addf_apply, mulf_apply, mulf_apply, logistic_at, logistic_at, tanh_at, e0, e1, e2, preact_at, preact_at,
    preact_at]

/-- The new hidden state of the block's row `p` at column `q`. -/
theorem hidden_at (x h c : Vec Ideal S256x1024 .f32) (wx wh : Vec Ideal S1024x4096 .bf16) (b : Vec Ideal S4096 .f32)
    (p : Fin 256) (q : Fin 1024) :
    k0_pay3 (F := Ideal) x h wx wh b c (ix2 p q)
      = hiddenOf (rowPre (fun k => x (ix2 p k)) (fun k => h (ix2 p k)) wx wh b) (c (ix2 p q)) q := by
  unfold k0_pay3 hiddenOf
  have e3 := slice2_axis1_apply 3072 (k0_pay1 (F := Ideal) x h wx wh b) slices_S256x4096_o0_3072_S256x1024 p q
    (col 3072 (by norm_num) q) rfl
  rw [mulf_apply, logistic_at, tanh_at, e3, preact_at, cell_at]

end Cert.KernelIdeal.CellPayload

end
-- ==== Proof.CellKernelValue.lean ====
/-
  The kernel's two result arrays after the run, as whole-array functions of the arguments.

  Grid point t stages rows 256 t .. 256 t + 255 of x, h and c and the three host-built arrays whole, and writes the
  same rows of the two results; so what point t writes back is block t of the specification's new hidden and cell
  states of the argument arrays, the 32 blocks tile the 8192 rows, and each result array ends at the specification's
  function.
-/
import proofs.«169946_j884763263700_1_alg».proof.Proof.CellFrame
import proofs.«169946_j884763263700_1_alg».proof.Proof.CellPayload
import Idealize.ShloMosaic.Lib.Pipeline.Value
import Idealize.ShloMosaic.Lib.StableHlo.Run

set_option maxRecDepth 16384

noncomputable section

namespace Cert.KernelIdeal.CellValue

open Cert.KernelIdeal Cert.KernelIdeal.Gen Cert.KernelIdeal.Cell Cert.KernelIdeal.CellPayload Cert.CellSpec
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

/-! ## The three arrays the host lines build -/

/-- The four input-to-gate weight matrices side by side. -/
def wxOf (c : Dev nD) : S1024x4096.Idx → EReal :=
  concatenate S1024x4096 1 [⟨S1024x1024, m ((c : Thread nD τ).loc main_arg3)⟩, ⟨S1024x1024, m ((c : Thread nD τ).loc main_arg7)⟩,
    ⟨S1024x1024, m ((c : Thread nD τ).loc main_arg11)⟩, ⟨S1024x1024, m ((c : Thread nD τ).loc main_arg15)⟩]
    concatenates_S1024x1024_S1024x1024_S1024x1024_S1024x1024_S1024x4096_d1

/-- The four hidden-to-gate weight matrices side by side. -/
def whOf (c : Dev nD) : S1024x4096.Idx → EReal :=
  concatenate S1024x4096 1 [⟨S1024x1024, m ((c : Thread nD τ).loc main_arg4)⟩, ⟨S1024x1024, m ((c : Thread nD τ).loc main_arg8)⟩,
    ⟨S1024x1024, m ((c : Thread nD τ).loc main_arg12)⟩, ⟨S1024x1024, m ((c : Thread nD τ).loc main_arg16)⟩]
    concatenates_S1024x1024_S1024x1024_S1024x1024_S1024x1024_S1024x4096_d1

/-- The four summed bias pairs end to end. -/
def biasOf (c : Dev nD) : S4096.Idx → EReal :=
  concatenate S4096 0 [⟨S1024, addf (F := Ideal) (φ := .f32) (m ((c : Thread nD τ).loc main_arg5)) (m ((c : Thread nD τ).loc main_arg6))⟩,
    ⟨S1024, addf (F := Ideal) (φ := .f32) (m ((c : Thread nD τ).loc main_arg9)) (m ((c : Thread nD τ).loc main_arg10))⟩,
    ⟨S1024, addf (F := Ideal) (φ := .f32) (m ((c : Thread nD τ).loc main_arg13)) (m ((c : Thread nD τ).loc main_arg14))⟩,
    ⟨S1024, addf (F := Ideal) (φ := .f32) (m ((c : Thread nD τ).loc main_arg17)) (m ((c : Thread nD τ).loc main_arg18))⟩]
    concatenates_S1024_S1024_S1024_S1024_S4096_d0

/-- The region finds the bf16 copy of the concatenated input-to-gate weights; over the extended reals the narrowing is
    the identity. -/
theorem entry_wx (c : Dev nD) : (entry m c main_v1 : S1024x4096.Idx → EReal) = wxOf m c := by
  unfold wxOf
  simp only [entry, hostOps0, List.flatten_cons, List.flatten_nil, List.append_nil]
  after_results
  rfl

/-- Likewise the hidden-to-gate weights. -/
theorem entry_wh (c : Dev nD) : (entry m c main_v3 : S1024x4096.Idx → EReal) = whOf m c := by
  unfold whOf
  simp only [entry, hostOps0, List.flatten_cons, List.flatten_nil, List.append_nil]
  after_results
  rfl

/-- And the bias vector: the four sums, concatenated. -/
theorem entry_bias (c : Dev nD) : (entry m c main_v8 : S4096.Idx → EReal) = biasOf m c := by
  unfold biasOf
  simp only [entry, hostOps0, List.flatten_cons, List.flatten_nil, List.append_nil]
  after_results
  rfl

/-! ## The windows' blocks, in the arrays' coordinates -/

/-- The printed index maps over the 32 grid points: the five row-blocked windows are at block row `t`, block column 0;
    the three shared arrays at block 0 throughout. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of grid point `t`'s block is row `256 t + p` of the array. -/
def rowOf (t : Fin cfg0.N) (p : Fin 256) : Fin 8192 :=
  ⟨256 * t.val + p.val, by have ht : t.val < 32 := lt_of_lt_of_eq t.isLt N_0; have := p.isLt; omega⟩

theorem rowOf_val (t : Fin cfg0.N) (p : Fin 256) : (rowOf t p).val = 256 * t.val + p.val := rfl

/-- A block of x, h or c at `(p, k)` is the array at row `256 t + p`, column `k`. -/
theorem x_block (c : Dev nD) (t : Fin cfg0.N) (p : Fin 256) (k : Fin 1024) :
    (blockAt m c 0 t : S256x1024.Idx → EReal) (ix2 p k) = m ((c : Thread nD τ).loc main_arg0) (ix2 (rowOf t p) k) := by
  obtain ⟨e0, e1, -⟩ := index_facts t
  rw [← entry_untouched m c main_arg0 (by decide)]
  show entry m c main_arg0 (((cfg0.win 0).blk t).view.emb (ix2 p k)) = entry m c main_arg0 (ix2 (rowOf t p) k)
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

theorem h_block (c : Dev nD) (t : Fin cfg0.N) (p : Fin 256) (k : Fin 1024) :
    (blockAt m c 1 t : S256x1024.Idx → EReal) (ix2 p k) = m ((c : Thread nD τ).loc main_arg1) (ix2 (rowOf t p) k) := by
  obtain ⟨-, -, e0, e1, -⟩ := index_facts t
  rw [← entry_untouched m c main_arg1 (by decide)]
  show entry m c main_arg1 (((cfg0.win 1).blk t).view.emb (ix2 p k)) = entry m c main_arg1 (ix2 (rowOf t p) k)
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

theorem c_block (c : Dev nD) (t : Fin cfg0.N) (p : Fin 256) (k : Fin 1024) :
    (blockAt m c 2 t : S256x1024.Idx → EReal) (ix2 p k) = m ((c : Thread nD τ).loc main_arg2) (ix2 (rowOf t p) k) := by
  obtain ⟨-, -, -, -, e0, e1, -⟩ := index_facts t
  rw [← entry_untouched m c main_arg2 (by decide)]
  show entry m c main_arg2 (((cfg0.win 2).blk t).view.emb (ix2 p k)) = entry m c main_arg2 (ix2 (rowOf t p) k)
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- The three shared arrays are staged whole at every point. -/
theorem wx_block (c : Dev nD) (t : Fin cfg0.N) : (blockAt m c 3 t : S1024x4096.Idx → EReal) = wxOf m c := by
  obtain ⟨-, -, -, -, -, -, e0, e1, -⟩ := index_facts t
  rw [← entry_wx]
  funext y
  show entry m c main_v1 (((cfg0.win 3).blk t).view.emb y) = entry m c main_v1 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 4096 + 1 * (y 1).val = (y 1).val; omega

theorem wh_block (c : Dev nD) (t : Fin cfg0.N) : (blockAt m c 4 t : S1024x4096.Idx → EReal) = whOf m c := by
  obtain ⟨-, -, -, -, -, -, -, -, e0, e1, -⟩ := index_facts t
  rw [← entry_wh]
  funext y
  show entry m c main_v3 (((cfg0.win 4).blk t).view.emb y) = entry m c main_v3 y
  refine congrArg _ (funext fun a => Fin.ext ?_)
  match a with
  | ⟨0, _⟩ => show win0_4.index t (0 : Fin 2) * 1024 + 1 * (y 0).val = (y 0).val; omega
  | ⟨1, _⟩ => show win0_4.index t (1 : Fin 2) * 4096 + 1 * (y 1).val = (y 1).val; omega

theorem bias_block (c : Dev nD) (t : Fin cfg0.N) : (blockAt m c 5 t : S4096.Idx → EReal) = biasOf m c := by
  obtain ⟨-, -, -, -, -, -, -, -, -, -, e0, -⟩ := index_facts t
  rw [← entry_bias]
  funext y
  show entry m c main_v8 (((cfg0.win 5).blk t).view.emb y) = entry m c main_v8 y
  refine congrArg _ (funext fun a => Fin.ext ?_)
  match a with
  | ⟨0, _⟩ => show win0_5.index t (0 : Fin 1) * 4096 + 1 * (y 0).val = (y 0).val; omega

/-! ## What a point writes back -/

theorem zero_off2 : (![0, 0] : Fin 2 → Nat) = fun _ => 0 := funext fun a => by fin_cases a <;> rfl
theorem zero_off1 : (![0] : Fin 1 → Nat) = fun _ => 0 := funext fun a => by fin_cases a <;> rfl

/-- The specification's arrays on core `c`. -/
abbrev specCell (c : Dev nD) : Rows.Idx → EReal :=
  newCell (m ((c : Thread nD τ).loc main_arg0)) (m ((c : Thread nD τ).loc main_arg1)) (m ((c : Thread nD τ).loc main_arg2))
    (wxOf m c) (whOf m c) (biasOf m c)
abbrev specHidden (c : Dev nD) : Rows.Idx → EReal :=
  newHidden (m ((c : Thread nD τ).loc main_arg0)) (m ((c : Thread nD τ).loc main_arg1)) (m ((c : Thread nD τ).loc main_arg2))
    (wxOf m c) (whOf m c) (biasOf m c)

/-- Point `t` writes back block `t` of the new cell state. -/
theorem cell_flushed (c : Dev nD) (t : Fin cfg0.N) :
    (dats m 0 c).flushed 7 t = ((cfg0.win 7).blk t).view.read (Elt Ideal) (specCell m c) := by
  show (cfg0.win 7).cut (grid0.coords t) ((dats m 0 c).after 7 t) = _
  rw [after_cout]
  unfold cBlock
  rw [View.canon_unit_zero zero_off2]
  simp only [View.ld_unit_zero (S := S256x1024) zero_off2, View.ld_unit_zero (S := S1024x4096) zero_off2,
    View.ld_unit_zero (S := S4096) zero_off1]
  funext y
  obtain ⟨p, q, rfl⟩ : ∃ (p : Fin 256) (q : Fin 1024), y = ix2 p q := ⟨y 0, y 1, eq_ix2 y⟩
  show k0_pay2 (F := Ideal) (blockAt m c 0 t) (blockAt m c 1 t) (blockAt m c 3 t) (blockAt m c 4 t) (blockAt m c 5 t)
      (blockAt m c 2 t) (ix2 p q) = specCell m c (((cfg0.win 7).blk t).view.emb (ix2 p q))
  refine (cell_at (blockAt m c 0 t) (blockAt m c 1 t) (blockAt m c 2 t) (blockAt m c 3 t) (blockAt m c 4 t)
    (blockAt m c 5 t) p q).trans ?_
  obtain ⟨-, -, -, -, -, -, -, -, -, -, -, -, -, e0, e1⟩ := index_facts t
  have hemb : ((cfg0.win 7).blk t).view.emb (ix2 p q) = ix2 (rowOf t p) q := funext fun a => Fin.ext (by
    match a with
    | ⟨0, _⟩ => show win0_7.index t (0 : Fin 2) * 256 + 1 * p.val = 256 * t.val + p.val; omega
    | ⟨1, _⟩ => show win0_7.index t (1 : Fin 2) * 1024 + 1 * q.val = q.val; omega)
  rw [hemb, wx_block, wh_block, bias_block, c_block]
  simp only [x_block, h_block]
  rfl

/-- Point `t` writes back block `t` of the new hidden state. -/
theorem hidden_flushed (c : Dev nD) (t : Fin cfg0.N) :
    (dats m 0 c).flushed 6 t = ((cfg0.win 6).blk t).view.read (Elt Ideal) (specHidden m c) := by
  show (cfg0.win 6).cut (grid0.coords t) ((dats m 0 c).after 6 t) = _
  rw [after_hout]
  unfold hBlock
  rw [View.canon_unit_zero zero_off2]
  simp only [View.ld_unit_zero (S := S256x1024) zero_off2, View.ld_unit_zero (S := S1024x4096) zero_off2,
    View.ld_unit_zero (S := S4096) zero_off1]
  funext y
  obtain ⟨p, q, rfl⟩ : ∃ (p : Fin 256) (q : Fin 1024), y = ix2 p q := ⟨y 0, y 1, eq_ix2 y⟩
  show k0_pay3 (F := Ideal) (blockAt m c 0 t) (blockAt m c 1 t) (blockAt m c 3 t) (blockAt m c 4 t) (blockAt m c 5 t)
      (blockAt m c 2 t) (ix2 p q) = specHidden m c (((cfg0.win 6).blk t).view.emb (ix2 p q))
  refine (hidden_at (blockAt m c 0 t) (blockAt m c 1 t) (blockAt m c 2 t) (blockAt m c 3 t) (blockAt m c 4 t)
    (blockAt m c 5 t) p q).trans ?_
  obtain ⟨-, -, -, -, -, -, -, -, -, -, -, e0, e1, -⟩ := index_facts t
  have hemb : ((cfg0.win 6).blk t).view.emb (ix2 p q) = ix2 (rowOf t p) q := funext fun a => Fin.ext (by
    match a with
    | ⟨0, _⟩ => show win0_6.index t (0 : Fin 2) * 256 + 1 * p.val = 256 * t.val + p.val; omega
    | ⟨1, _⟩ => show win0_6.index t (1 : Fin 2) * 1024 + 1 * q.val = q.val; omega)
  rw [hemb, wx_block, wh_block, bias_block, c_block]
  simp only [x_block, h_block]
  rfl

/-! ## The blocks tile the rows -/

/-- An index of a result array is in point `t`'s block iff its row is one of rows `256 t .. 256 t + 255`. -/
theorem mem_cell_block (t : Fin cfg0.N) (i : S8192x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v9_1).slice (win0_7.rect t)).set ↔ _
  rw [View.set_slice_whole, Rect.mem_set_unit]
  exact Iff.rfl

theorem mem_hidden_block (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v9_0).slice (win0_6.rect t)).set ↔ _
  rw [View.set_slice_whole, Rect.mem_set_unit]
  exact Iff.rfl

/-- The grid point whose block holds row `r`. -/
def pointOf (i : S8192x1024.Idx) : Fin cfg0.N :=
  ⟨(i 0).val / 256, by have h : (i 0).val < 8192 := (i 0).isLt; rw [show cfg0.N = 32 from N_0]; omega⟩

theorem cell_cover (i : S8192x1024.Idx) :
    ∃ t : Fin cfg0.N, (cfg0.win 7).flush t = true ∧ i ∈ ((cfg0.win 7).blk t).view.set := by
  refine ⟨pointOf i, flush0_7 _, ?_⟩
  rw [mem_cell_block]
  obtain ⟨-, -, -, -, -, -, -, -, -, -, -, -, -, e0, e1⟩ := index_facts (pointOf i)
  have h0 : (i 0).val < 8192 := (i 0).isLt
  have h1 : (i 1).val < 1024 := (i 1).isLt
  have hp : (pointOf i).val = (i 0).val / 256 := rfl
  intro a
  match a with
  | ⟨0, _⟩ =>
    show win0_7.index (pointOf i) (0 : Fin 2) * 256 ≤ (i 0).val ∧ (i 0).val < win0_7.index (pointOf i) (0 : Fin 2) * 256 + 256
    omega
  | ⟨1, _⟩ =>
    show win0_7.index (pointOf i) (1 : Fin 2) * 1024 ≤ (i 1).val ∧ (i 1).val < win0_7.index (pointOf i) (1 : Fin 2) * 1024 + 1024
    omega

theorem hidden_cover (i : S8192x1024.Idx) :
    ∃ t : Fin cfg0.N, (cfg0.win 6).flush t = true ∧ i ∈ ((cfg0.win 6).blk t).view.set := by
  refine ⟨pointOf i, flush0_6 _, ?_⟩
  rw [mem_hidden_block]
  obtain ⟨-, -, -, -, -, -, -, -, -, -, -, e0, e1, -⟩ := index_facts (pointOf i)
  have h0 : (i 0).val < 8192 := (i 0).isLt
  have h1 : (i 1).val < 1024 := (i 1).isLt
  have hp : (pointOf i).val = (i 0).val / 256 := rfl
  intro a
  match a with
  | ⟨0, _⟩ =>
    show win0_6.index (pointOf i) (0 : Fin 2) * 256 ≤ (i 0).val ∧ (i 0).val < win0_6.index (pointOf i) (0 : Fin 2) * 256 + 256
    omega
  | ⟨1, _⟩ =>
    show win0_6.index (pointOf i) (1 : Fin 2) * 1024 ≤ (i 1).val ∧ (i 1).val < win0_6.index (pointOf i) (1 : Fin 2) * 1024 + 1024
    omega

/-! ## The result arrays after the run -/

theorem cell_final (c : Dev nD) : (dats m 0 c).arrAt 7 cfg0.N = specCell m c :=
  (dats m 0 c).arrAt_eq_of_cover 7 (specCell m c) (fun t _ => cell_flushed m c t) cell_cover

theorem hidden_final (c : Dev nD) : (dats m 0 c).arrAt 6 cfg0.N = specHidden m c :=
  (dats m 0 c).arrAt_eq_of_cover 6 (specHidden m c) (fun t _ => hidden_flushed m c t) hidden_cover

/-- The run of the idealized kernel: the two results at the specification's functions of the arguments, the arguments
    unchanged. -/
theorem run : θ_run defs (onTc (τ := τ) (main (F := Ideal))) ⟨m, fun _ => 0, ρ⟩ fun r => ∀ c : Dev nD,
      r.2.mem ((c : Thread nD τ).loc main_v9_0) = specHidden m c
      ∧ r.2.mem ((c : Thread nD τ).loc main_v9_1) = specCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c =>
    ⟨((h c).1 6).trans (hidden_final m c), ((h c).1 7).trans (cell_final m c),
      kept_of_post m (dats m) (dats_A m) r h c⟩)
    (run_main m ρ)

end Cert.KernelIdeal.CellValue

end
-- ==== Proof.CellRefValue.lean ====
/-
  The reference, read at an index, is the specification.

  The reference concatenates the gates' weights and summed biases exactly as the kernel's host lines do, forms the
  8192 x 4096 pre-activations with two whole matrix products, slices out the four gates, and applies the logistic
  function in jax's expanded form 1 / (1 + exp (-z)); over the extended reals that expression IS the logistic
  function, a matrix product is the sum over the contracted axis, and the rest is elementwise.
-/
import proofs.«169946_j884763263700_1_alg».proof.Proof.Gen.ReferenceIdeal.Read
import proofs.«169946_j884763263700_1_alg».proof.Proof.CellSpec
import Idealize.ShloMosaic.Lib.IdealHost

noncomputable section

namespace Cert.ReferenceIdeal.CellRef

open Cert.ReferenceIdeal Cert.ReferenceIdeal.Gen Cert.ReferenceIdeal.Read Cert.CellSpec
open Idealize.ShloMosaic Idealize.ShloMosaic.ValueIdx
open scoped BigOperators

/-- One over one plus the exponential of minus `z`, as the host computes it, is the logistic function of `z` — at
    the infinities too, where both are 0 and 1. -/
theorem host_logistic (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def,
    Ideal.ofBits_def, Ideal.ofBits_one_f32]
  rfl

variable (x0 x1 x2 : (⟨S8192x1024, .f32⟩ : BufTy).Contents (Elt Ideal))
  (x3 x4 x7 x8 x11 x12 x15 x16 : (⟨S1024x1024, .f32⟩ : BufTy).Contents (Elt Ideal))
  (x5 x6 x9 x10 x13 x14 x17 x18 : (⟨S1024, .f32⟩ : BufTy).Contents (Elt Ideal))

/-- The reference's pre-activations of row `r`. -/
theorem preact_at (r : Fin 8192) (j : Fin 4096) :
    val_main_v12 (F := Ideal) x0 x1 x3 x4 x5 x6 x7 x8 x9 x10 x11 x12 x13 x14 x15 x16 x17 x18 (ix2 r j)
      = rowPre (fun k => x0 (ix2 r k)) (fun k => x1 (ix2 r k)) (val_main_v0 (F := Ideal) x3 x7 x11 x15)
          (val_main_v1 (F := Ideal) x4 x8 x12 x16) (val_main_v6 (F := Ideal) x5 x6 x9 x10 x13 x14 x17 x18) j := by
  rw [val_main_v12_apply, val_main_v9_apply, val_main_v7_apply, val_main_v8_apply, val_main_v11_apply,
    val_main_v10_apply]
  unfold rowPre
  have e1 : ∀ k, lidx_main_v7 (ix2 r j) k = ix2 r k := fun k => funext fun a => Fin.ext (by
    match a with | ⟨0, _⟩ => rfl | ⟨1, _⟩ => rfl)
  have e2 : ∀ k, ridx_main_v7 (ix2 r j) k = ix2 k j := fun k => funext fun a => Fin.ext (by
    match a with | ⟨0, _⟩ => rfl | ⟨1, _⟩ => rfl)
  have e3 : ∀ k, lidx_main_v8 (ix2 r j) k = ix2 r k := fun k => funext fun a => Fin.ext (by
    match a with | ⟨0, _⟩ => rfl | ⟨1, _⟩ => rfl)
  have e4 : ∀ k, ridx_main_v8 (ix2 r j) k = ix2 k j := fun k => funext fun a => Fin.ext (by
    match a with | ⟨0, _⟩ => rfl | ⟨1, _⟩ => rfl)
  have e5 : idx_main_v10 (idx_main_v11 (ix2 r j)) = ix1 j := funext fun a => Fin.ext (by
    match a with | ⟨0, _⟩ => rfl)
  simp only [Ideal.addf_def, e1, e2, e3, e4, e5]

/-! The four gates' slices, at row `r` and column `q`. -/

theorem gate_in (r : Fin 8192) (q : Fin 1024) :
    val_main_v13 (F := Ideal) x0 x1 x3 x4 x5 x6 x7 x8 x9 x10 x11 x12 x13 x14 x15 x16 x17 x18 (ix2 r q) = val_main_v12 (F := Ideal) x0 x1 x3 x4 x5 x6 x7 x8 x9 x10 x11 x12 x13 x14 x15 x16 x17 x18 (ix2 r (col 0 (by norm_num) q)) := by
  rw [val_main_v13_apply]
  exact congrArg _ (funext fun a => Fin.ext (by
    match a with | ⟨0, _⟩ => rfl | ⟨1, _⟩ => exact (Nat.zero_add _).symm))
theorem gate_forget (r : Fin 8192) (q : Fin 1024) :
    val_main_v14 (F := Ideal) x0 x1 x3 x4 x5 x6 x7 x8 x9 x10 x11 x12 x13 x14 x15 x16 x17 x18 (ix2 r q) = val_main_v12 (F := Ideal) x0 x1 x3 x4 x5 x6 x7 x8 x9 x10 x11 x12 x13 x14 x15 x16 x17 x18 (ix2 r (col 1024 (by norm_num) q)) := by
  rw [val_main_v14_apply]
  exact congrArg _ (funext fun a => Fin.ext (by
    match a with | ⟨0, _⟩ => rfl | ⟨1, _⟩ => rfl))
theorem gate_cand (r : Fin 8192) (q : Fin 1024) :
    val_main_v15 (F := Ideal) x0 x1 x3 x4 x5 x6 x7 x8 x9 x10 x11 x12 x13 x14 x15 x16 x17 x18 (ix2 r q) = val_main_v12 (F := Ideal) x0 x1 x3 x4 x5 x6 x7 x8 x9 x10 x11 x12 x13 x14 x15 x16 x17 x18 (ix2 r (col 2048 (by norm_num) q)) := by
  rw [val_main_v15_apply]
  exact congrArg _ (funext fun a => Fin.ext (by
    match a with | ⟨0, _⟩ => rfl | ⟨1, _⟩ => rfl))
theorem gate_out (r : Fin 8192) (q : Fin 1024) :
    val_main_v16 (F := Ideal) x0 x1 x3 x4 x5 x6 x7 x8 x9 x10 x11 x12 x13 x14 x15 x16 x17 x18 (ix2 r q) = val_main_v12 (F := Ideal) x0 x1 x3 x4 x5 x6 x7 x8 x9 x10 x11 x12 x13 x14 x15 x16 x17 x18 (ix2 r (col 3072 (by norm_num) q)) := by
  rw [val_main_v16_apply]
  exact congrArg _ (funext fun a => Fin.ext (by
    match a with | ⟨0, _⟩ => rfl | ⟨1, _⟩ => rfl))

/-- The reference's new cell state at `(r, q)`. -/
theorem cell_at (r : Fin 8192) (q : Fin 1024) :
    val_main_v38 (F := Ideal) x0 x1 x2 x3 x4 x5 x6 x7 x8 x9 x10 x11 x12 x13 x14 x15 x16 x17 x18 (ix2 r q)
      = cellOf (rowPre (fun k => x0 (ix2 r k)) (fun k => x1 (ix2 r k)) (val_main_v0 (F := Ideal) x3 x7 x11 x15)
          (val_main_v1 (F := Ideal) x4 x8 x12 x16) (val_main_v6 (F := Ideal) x5 x6 x9 x10 x13 x14 x17 x18))
          (x2 (ix2 r q)) q := by
  simp only [val_main_v38_apply, val_main_v36_apply, val_main_v37_apply, val_main_v28_apply, val_main_v27_apply,
    val_main_cst_2_apply, val_main_v26_apply, val_main_v25_apply, val_main_cst_1_apply, val_main_v24_apply,
    val_main_v23_apply, val_main_v22_apply, val_main_v21_apply, val_main_cst_0_apply, val_main_v20_apply,
    val_main_v19_apply, val_main_cst_apply, val_main_v18_apply, val_main_v17_apply, val_main_v29_apply]
  rw [host_logistic, host_logistic, gate_in, gate_forget, gate_cand, preact_at, preact_at, preact_at]
  rfl

/-- The reference's new hidden state at `(r, q)`. -/
theorem hidden_at (r : Fin 8192) (q : Fin 1024) :
    val_main_v40 (F := Ideal) x0 x1 x2 x3 x4 x5 x6 x7 x8 x9 x10 x11 x12 x13 x14 x15 x16 x17 x18 (ix2 r q)
      = hiddenOf (rowPre (fun k => x0 (ix2 r k)) (fun k => x1 (ix2 r k)) (val_main_v0 (F := Ideal) x3 x7 x11 x15)
          (val_main_v1 (F := Ideal) x4 x8 x12 x16) (val_main_v6 (F := Ideal) x5 x6 x9 x10 x13 x14 x17 x18))
          (x2 (ix2 r q)) q := by
  simp only [val_main_v40_apply, val_main_v39_apply, val_main_v35_apply, val_main_v34_apply, val_main_cst_4_apply,
    val_main_v33_apply, val_main_v32_apply, val_main_cst_3_apply, val_main_v31_apply, val_main_v30_apply]
  rw [host_logistic, gate_out, preact_at, cell_at]
  rfl

/-- The reference's second result is the specification's new cell state, -/
theorem cell_eq : val_main_v38 (F := Ideal) x0 x1 x2 x3 x4 x5 x6 x7 x8 x9 x10 x11 x12 x13 x14 x15 x16 x17 x18
    = newCell x0 x1 x2 (val_main_v0 (F := Ideal) x3 x7 x11 x15) (val_main_v1 (F := Ideal) x4 x8 x12 x16)
        (val_main_v6 (F := Ideal) x5 x6 x9 x10 x13 x14 x17 x18) := by
  funext i
  obtain ⟨r, q, rfl⟩ : ∃ (r : Fin 8192) (q : Fin 1024), i = ix2 r q := ⟨i 0, i 1, eq_ix2 i⟩
  exact cell_at x0 x1 x2 x3 x4 x7 x8 x11 x12 x15 x16 x5 x6 x9 x10 x13 x14 x17 x18 r q

/-- and its first the new hidden state. -/
theorem hidden_eq : val_main_v40 (F := Ideal) x0 x1 x2 x3 x4 x5 x6 x7 x8 x9 x10 x11 x12 x13 x14 x15 x16 x17 x18
    = newHidden x0 x1 x2 (val_main_v0 (F := Ideal) x3 x7 x11 x15) (val_main_v1 (F := Ideal) x4 x8 x12 x16)
        (val_main_v6 (F := Ideal) x5 x6 x9 x10 x13 x14 x17 x18) := by
  funext i
  obtain ⟨r, q, rfl⟩ : ∃ (r : Fin 8192) (q : Fin 1024), i = ix2 r q := ⟨i 0, i 1, eq_ix2 i⟩
  exact hidden_at x0 x1 x2 x3 x4 x7 x8 x11 x12 x15 x16 x5 x6 x9 x10 x13 x14 x17 x18 r q

end Cert.ReferenceIdeal.CellRef

end
-- ==== Proof.lean ====
/-
  An LSTM cell, as one Pallas kernel tiled over the batch, against the plain jnp reference.

  Both programs lay the four gates' weight matrices side by side and their summed biases end to end, form the
  pre-activations z = x Wx + h Wh + b, and set c' = sigma(z_f) * c + sigma(z_i) * tanh(z_g), h' = sigma(z_o) * tanh(c').
  They differ in how: the kernel narrows its matrix operands to bf16 (the identity over the extended reals), multiplies
  256 rows at a time, and uses the logistic operation where the reference spells 1 / (1 + exp(-z)) (the same function
  over the extended reals, at the infinities too).  No law of arithmetic is needed beyond that: the two sides are the
  same expression index by index (`Cert.CellSpec`), so the input's finiteness is never used.

  The three frames: each kernel program runs to the end with its arguments unchanged (the frame run of the kernel,
  read at the word level and at the extended reals); the reference's frame is its run with the results dropped.  The
  idealized kernel is the kernel's own text, so nothing is owed for the idealization.
-/
import proofs.«169946_j884763263700_1_alg».proof.Defs
import proofs.«169946_j884763263700_1_alg».proof.Proof.Gen.Kernel
import proofs.«169946_j884763263700_1_alg».proof.Proof.Gen.KernelIdeal
import proofs.«169946_j884763263700_1_alg».proof.Proof.Gen.ReferenceIdeal
import proofs.«169946_j884763263700_1_alg».proof.Proof.Gen.Pre_finite_inputs
import proofs.«169946_j884763263700_1_alg».proof.Proof.CellFrameBits
import proofs.«169946_j884763263700_1_alg».proof.Proof.CellKernelValue
import proofs.«169946_j884763263700_1_alg».proof.Proof.CellRefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Cell.frame (F := Bits) m ρ

theorem frame_ideal : Cert.frame_KernelIdeal := fun m ρ _ => Cert.KernelIdeal.Cell.frame (F := Ideal) m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the new hidden state and the new cell state of the specification, as functions of the
    kernel's arguments: the kernel by its blocks, the reference by its whole-array operations read at an index, from
    arguments that agree. -/
theorem algebraic : Cert.algebraic_KernelIdeal_ReferenceIdeal := by
  intro m ρ m' ρ' _ hagree
  refine ⟨fun c => Cert.KernelIdeal.CellValue.specHidden m c, fun c => Cert.KernelIdeal.CellValue.specCell m c,
    Cert.KernelIdeal.CellValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v40_eq, Cert.ReferenceIdeal.CellRef.hidden_eq,
      h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v38_eq, Cert.ReferenceIdeal.CellRef.cell_eq,
      h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
